-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel

variable [Facts]

def fn {F : FTy → Type} [FloatOps F] (main_arg0 : FVec F S16x256x128x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  main_v3
-- ==== Kernel.lean ====
abbrev S16x256x128x128 : Shape := ⟨4, ![16, 256, 128, 128]⟩
abbrev S16x4x64x128x128 : Shape := ⟨5, ![16, 4, 64, 128, 128]⟩
abbrev S1x4x16x128x128 : Shape := ⟨5, ![1, 4, 16, 128, 128]⟩
abbrev S1x1x16x128x128 : Shape := ⟨5, ![1, 1, 16, 128, 128]⟩
abbrev S16x128x128 : Shape := ⟨3, ![16, 128, 128]⟩
abbrev S16x1x64x128x128 : Shape := ⟨5, ![16, 1, 64, 128, 128]⟩
abbrev S16x64x128x128 : Shape := ⟨4, ![16, 64, 128, 128]⟩
abbrev S16x64x128x128x1 : Shape := ⟨5, ![16, 64, 128, 128, 1]⟩
abbrev S16x64x128x128x2 : Shape := ⟨5, ![16, 64, 128, 128, 2]⟩
abbrev S16x64x128x256 : Shape := ⟨4, ![16, 64, 128, 256]⟩
abbrev S16x64x128x1x256 : Shape := ⟨5, ![16, 64, 128, 1, 256]⟩
abbrev S16x64x128x2x256 : Shape := ⟨5, ![16, 64, 128, 2, 256]⟩
abbrev S16x64x256x256 : Shape := ⟨4, ![16, 64, 256, 256]⟩

abbrev nBuf : Space → Nat
  | .hbm => 23
  | .vmem => 4
  | .smem => 0
  | _ => 0

abbrev bufTy : (tb : Table) → Fin (tcTables nBuf tb) → BufTy
  | .hbm, ⟨0, _⟩ => ⟨S16x256x128x128, .f32⟩
  | .hbm, ⟨1, _⟩ => ⟨S16x4x64x128x128, .f32⟩
  | .hbm, ⟨2, _⟩ => ⟨S16x4x64x128x128, .f32⟩
  | .hbm, ⟨3, _⟩ => ⟨S16x1x64x128x128, .f32⟩
  | .hbm, ⟨4, _⟩ => ⟨S16x64x128x128, .f32⟩
  | .hbm, ⟨5, _⟩ => ⟨S16x1x64x128x128, .f32⟩
  | .hbm, ⟨6, _⟩ => ⟨S16x64x128x128, .f32⟩
  | .hbm, ⟨7, _⟩ => ⟨S16x1x64x128x128, .f32⟩
  | .hbm, ⟨8, _⟩ => ⟨S16x64x128x128, .f32⟩
  | .hbm, ⟨9, _⟩ => ⟨S16x1x64x128x128, .f32⟩
  | .hbm, ⟨10, _⟩ => ⟨S16x64x128x128, .f32⟩
  | .hbm, ⟨11, _⟩ => ⟨S16x64x128x128x1, .f32⟩
  | .hbm, ⟨12, _⟩ => ⟨S16x64x128x128x1, .f32⟩
  | .hbm, ⟨13, _⟩ => ⟨S16x64x128x128x2, .f32⟩
  | .hbm, ⟨14, _⟩ => ⟨S16x64x128x256, .f32⟩
  | .hbm, ⟨15, _⟩ => ⟨S16x64x128x128x1, .f32⟩
  | .hbm, ⟨16, _⟩ => ⟨S16x64x128x128x1, .f32⟩
  | .hbm, ⟨17, _⟩ => ⟨S16x64x128x128x2, .f32⟩
  | .hbm, ⟨18, _⟩ => ⟨S16x64x128x256, .f32⟩
  | .hbm, ⟨19, _⟩ => ⟨S16x64x128x1x256, .f32⟩
  | .hbm, ⟨20, _⟩ => ⟨S16x64x128x1x256, .f32⟩
  | .hbm, ⟨21, _⟩ => ⟨S16x64x128x2x256, .f32⟩
  | .hbm, ⟨22, _⟩ => ⟨S16x64x256x256, .f32⟩
  | .local _ .vmem, ⟨0, _⟩ => ⟨S1x4x16x128x128, .f32⟩
  | .local _ .vmem, ⟨1, _⟩ => ⟨S1x4x16x128x128, .f32⟩
  | .local _ .vmem, ⟨2, _⟩ => ⟨S1x4x16x128x128, .f32⟩
  | .local _ .vmem, ⟨3, _⟩ => ⟨S1x4x16x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x4x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x256x128x128_S16x4x64x128x128 : S16x256x128x128.ShapeCasts S16x4x64x128x128
  inb_S1x4x16x128x128_S1x1x16x128x128_0_0_0_0_0 : ∀ a, (![0, 0, 0, 0, 0] : Fin 5 → Nat) a + S1x1x16x128x128.size a ≤ S1x4x16x128x128.size a
  h_S1x1x16x128x128 : 0 < S1x1x16x128x128.numel
  shapeCasts_S1x1x16x128x128_S16x128x128 : S1x1x16x128x128.ShapeCasts S16x128x128
  inb_S1x4x16x128x128_S1x1x16x128x128_0_1_0_0_0 : ∀ a, (![0, 1, 0, 0, 0] : Fin 5 → Nat) a + S1x1x16x128x128.size a ≤ S1x4x16x128x128.size a
  inb_S1x4x16x128x128_S1x1x16x128x128_0_2_0_0_0 : ∀ a, (![0, 2, 0, 0, 0] : Fin 5 → Nat) a + S1x1x16x128x128.size a ≤ S1x4x16x128x128.size a
  inb_S1x4x16x128x128_S1x1x16x128x128_0_3_0_0_0 : ∀ a, (![0, 3, 0, 0, 0] : Fin 5 → Nat) a + S1x1x16x128x128.size a ≤ S1x4x16x128x128.size a
  shapeCasts_S16x128x128_S1x1x16x128x128 : S16x128x128.ShapeCasts S1x1x16x128x128
  slices_S16x4x64x128x128_S16x1x64x128x128_0_0_0_0_0 : S16x4x64x128x128.Slices ![0, 0, 0, 0, 0] S16x1x64x128x128
  shapeCasts_S16x1x64x128x128_S16x64x128x128 : S16x1x64x128x128.ShapeCasts S16x64x128x128
  slices_S16x4x64x128x128_S16x1x64x128x128_0_1_0_0_0 : S16x4x64x128x128.Slices ![0, 1, 0, 0, 0] S16x1x64x128x128
  slices_S16x4x64x128x128_S16x1x64x128x128_0_2_0_0_0 : S16x4x64x128x128.Slices ![0, 2, 0, 0, 0] S16x1x64x128x128
  slices_S16x4x64x128x128_S16x1x64x128x128_0_3_0_0_0 : S16x4x64x128x128.Slices ![0, 3, 0, 0, 0] S16x1x64x128x128
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  shapeCasts_S16x64x128x128x2_S16x64x128x256 : S16x64x128x128x2.ShapeCasts S16x64x128x256
  bcast_S16x64x128x256_S16x64x128x1x256_0_1_2_4 : S16x64x128x256.BroadcastsInDim S16x64x128x1x256 (![0, 1, 2, 4] : Fin 4 → Fin S16x64x128x1x256.rank)
  concatenates_S16x64x128x1x256_S16x64x128x1x256_S16x64x128x2x256_d3 : Shape.Concatenates [S16x64x128x1x256, S16x64x128x1x256] S16x64x128x2x256 3
  shapeCasts_S16x64x128x2x256_S16x64x256x256 : S16x64x128x2x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x16x128x128.size a ≤ S16x4x64x128x128.size a
  hwx0_0 : ∀ i : grid0.Coords, EltTy.bits .f32 = 32 ∨ (Rect.block (s := S16x4x64x128x128) S1x4x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x16x128x128.size a ≤ S16x4x64x128x128.size a
  hwx0_1 : ∀ i : grid0.Coords, EltTy.bits .f32 = 32 ∨ (Rect.block (s := S16x4x64x128x128) S1x4x16x128x128.size (cc0_transform_1 i) (hinb0_1 i)).WholeWords (EltTy.packing .f32)

variable [Facts₀]

abbrev win0_0 : Pipeline.Window sig grid0 :=
  Pipeline.Window.ofSpec (Memref.whole main_v0) S1x4x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4x16x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S16x4x64x128x128 : Shape := ⟨5, ![16, 4, 64, 128, 128]⟩
abbrev S16x1x64x128x128 : Shape := ⟨5, ![16, 1, 64, 128, 128]⟩
abbrev S16x64x128x128 : Shape := ⟨4, ![16, 64, 128, 128]⟩
abbrev S_ : Shape := ⟨0, ![]⟩
abbrev S16x64x128x128x1 : Shape := ⟨5, ![16, 64, 128, 128, 1]⟩
abbrev S16x64x128x128x2 : Shape := ⟨5, ![16, 64, 128, 128, 2]⟩
abbrev S16x64x128x256 : Shape := ⟨4, ![16, 64, 128, 256]⟩
abbrev S16x64x128x1x256 : Shape := ⟨5, ![16, 64, 128, 1, 256]⟩
abbrev S16x64x128x2x256 : Shape := ⟨5, ![16, 64, 128, 2, 256]⟩
abbrev S16x64x256x256 : Shape := ⟨4, ![16, 64, 256, 256]⟩

abbrev nBuf : Space → Nat
  | .hbm => 46
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x4x64x128x128, .f32⟩
  | .hbm, ⟨2, _⟩ => ⟨S16x1x64x128x128, .f32⟩
  | .hbm, ⟨3, _⟩ => ⟨S16x64x128x128, .f32⟩
  | .hbm, ⟨4, _⟩ => ⟨S16x1x64x128x128, .f32⟩
  | .hbm, ⟨5, _⟩ => ⟨S16x64x128x128, .f32⟩
  | .hbm, ⟨6, _⟩ => ⟨S16x1x64x128x128, .f32⟩
  | .hbm, ⟨7, _⟩ => ⟨S16x64x128x128, .f32⟩
  | .hbm, ⟨8, _⟩ => ⟨S16x1x64x128x128, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S_, .f32⟩
  | .hbm, ⟨14, _⟩ => ⟨S16x64x128x128, .f32⟩
  | .hbm, ⟨15, _⟩ => ⟨S16x64x128x128, .f32⟩
  | .hbm, ⟨16, _⟩ => ⟨S16x64x128x128, .f32⟩
  | .hbm, ⟨17, _⟩ => ⟨S16x64x128x128, .f32⟩
  | .hbm, ⟨18, _⟩ => ⟨S16x64x128x128, .f32⟩
  | .hbm, ⟨19, _⟩ => ⟨S_, .f32⟩
  | .hbm, ⟨20, _⟩ => ⟨S16x64x128x128, .f32⟩
  | .hbm, ⟨21, _⟩ => ⟨S16x64x128x128, .f32⟩
  | .hbm, ⟨22, _⟩ => ⟨S16x64x128x128, .f32⟩
  | .hbm, ⟨23, _⟩ => ⟨S16x64x128x128, .f32⟩
  | .hbm, ⟨24, _⟩ => ⟨S16x64x128x128, .f32⟩
  | .hbm, ⟨25, _⟩ => ⟨S_, .f32⟩
  | .hbm, ⟨26, _⟩ => ⟨S16x64x128x128, .f32⟩
  | .hbm, ⟨27, _⟩ => ⟨S16x64x128x128, .f32⟩
  | .hbm, ⟨28, _⟩ => ⟨S16x64x128x128, .f32⟩
  | .hbm, ⟨29, _⟩ => ⟨S16x64x128x128, .f32⟩
  | .hbm, ⟨30, _⟩ => ⟨S16x64x128x128, .f32⟩
  | .hbm, ⟨31, _⟩ => ⟨S_, .f32⟩
  | .hbm, ⟨32, _⟩ => ⟨S16x64x128x128, .f32⟩
  | .hbm, ⟨33, _⟩ => ⟨S16x64x128x128, .f32⟩
  | .hbm, ⟨34, _⟩ => ⟨S16x64x128x128x1, .f32⟩
  | .hbm, ⟨35, _⟩ => ⟨S16x64x128x128x1, .f32⟩
  | .hbm, ⟨36, _⟩ => ⟨S16x64x128x128x2, .f32⟩
  | .hbm, ⟨37, _⟩ => ⟨S16x64x128x256, .f32⟩
  | .hbm, ⟨38, _⟩ => ⟨S16x64x128x128x1, .f32⟩
  | .hbm, ⟨39, _⟩ => ⟨S16x64x128x128x1, .f32⟩
  | .hbm, ⟨40, _⟩ => ⟨S16x64x128x128x2, .f32⟩
  | .hbm, ⟨41, _⟩ => ⟨S16x64x128x256, .f32⟩
  | .hbm, ⟨42, _⟩ => ⟨S16x64x128x1x256, .f32⟩
  | .hbm, ⟨43, _⟩ => ⟨S16x64x128x1x256, .f32⟩
  | .hbm, ⟨44, _⟩ => ⟨S16x64x128x2x256, .f32⟩
  | .hbm, ⟨45, _⟩ => ⟨S16x64x256x256, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]

class Facts₀ : Prop where
  shapeCasts_S16x256x128x128_S16x4x64x128x128 : S16x256x128x128.ShapeCasts S16x4x64x128x128
  slices_S16x4x64x128x128_S16x1x64x128x128_0_0_0_0_0 : S16x4x64x128x128.Slices ![0, 0, 0, 0, 0] S16x1x64x128x128
  shapeCasts_S16x1x64x128x128_S16x64x128x128 : S16x1x64x128x128.ShapeCasts S16x64x128x128
  slices_S16x4x64x128x128_S16x1x64x128x128_0_1_0_0_0 : S16x4x64x128x128.Slices ![0, 1, 0, 0, 0] S16x1x64x128x128
  slices_S16x4x64x128x128_S16x1x64x128x128_0_2_0_0_0 : S16x4x64x128x128.Slices ![0, 2, 0, 0, 0] S16x1x64x128x128
  slices_S16x4x64x128x128_S16x1x64x128x128_0_3_0_0_0 : S16x4x64x128x128.Slices ![0, 3, 0, 0, 0] S16x1x64x128x128
  bcast_S_S16x64x128x128 : S_.BroadcastsInDim S16x64x128x128 (![] : Fin 0 → Fin S16x64x128x128.rank)
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  shapeCasts_S16x64x128x128x2_S16x64x128x256 : S16x64x128x128x2.ShapeCasts S16x64x128x256
  bcast_S16x64x128x256_S16x64x128x1x256_0_1_2_4 : S16x64x128x256.BroadcastsInDim S16x64x128x1x256 (![0, 1, 2, 4] : Fin 4 → Fin S16x64x128x1x256.rank)
  concatenates_S16x64x128x1x256_S16x64x128x1x256_S16x64x128x2x256_d3 : Shape.Concatenates [S16x64x128x1x256, S16x64x128x1x256] S16x64x128x2x256 3
  shapeCasts_S16x64x128x2x256_S16x64x256x256 : S16x64x128x2x256.ShapeCasts S16x64x256x256

variable [Facts₀]

class Facts : Prop extends Facts₀ where

variable [Facts]
-- ==== Proof.Haar.lean ====
/-
  The inverse Haar butterfly over the extended reals.

  A group of four sub-band samples a (low-low), h, v, d at one position makes one 2×2 tile of the
  output: ¼(a+h+v+d), ¼(a−h+v−d), ¼(a+h−v−d), ¼(a−h−v+d). One program forms the pair sums and
  differences a±h, v±d first and combines those; the other adds the four terms left to right. Over
  the REALS the two groupings agree (`tile_eq_tileSeq`); with an infinite sample they need not
  (−(v+d) is not −v−d when v and d are opposite infinities), which is why the law is stated for
  real samples only.

  The samples sit in an array whose second axis is the sub-band: `band X k j` is sub-band k at the
  position of j, and `quadOf X` holds at (b, k, g, i, j) entry k of the tile made from position
  (b, ·, g, i, j). The extents other than the sub-band axis are parameters, so the same function
  describes one block of the array and the whole array.
-/
import Idealize.ShloMosaic.PureOps.Ideal
import Idealize.ShloMosaic.Lib.ValueIdx
import Idealize.ShloMosaic.Lib.Pipeline.Value

noncomputable section

namespace Cert.Haar

open Idealize.ShloMosaic Idealize.ShloMosaic.ValueIdx

/-- One quarter, as the word both programs print (0x3E800000 is 2⁻² exactly; its value is never needed:
    the same factor multiplies both sides). -/
abbrev quarter : EReal := Ideal.ofBits .f32 0x3E800000#32

/-- Entry k of the 2×2 tile from the four samples, pair sums and differences first. -/
def tile (k : Nat) (a h v d : EReal) : EReal :=
  match k with
  | 0 => ((a + h) + (v + d)) * quarter
  | 1 => ((a - h) + (v - d)) * quarter
  | 2 => ((a + h) - (v + d)) * quarter
  | _ => ((a - h) - (v - d)) * quarter

/-- The same entry with the four terms taken left to right. -/
def tileSeq (k : Nat) (a h v d : EReal) : EReal :=
  match k with
  | 0 => (((a + h) + v) + d) * quarter
  | 1 => (((a - h) + v) - d) * quarter
  | 2 => (((a + h) - v) - d) * quarter
  | _ => (((a - h) - v) + d) * quarter

/-- On real samples the two groupings are one number. -/
theorem tile_eq_tileSeq (k : Nat) (a h v d : ℝ) : tile k a h v d = tileSeq k a h v d := by
  match k with
  | 0 =>
    show (((a : EReal) + h) + (v + d)) * quarter = ((((a : EReal) + h) + v) + d) * quarter
    rw [add_assoc ((a : EReal) + h) v d]
  | 1 =>
    show (((a : EReal) - h) + (v - d)) * quarter = ((((a : EReal) - h) + v) - d) * quarter
    simp only [← EReal.coe_add, ← EReal.coe_sub]
    rw [show (a - h) + (v - d) = ((a - h) + v) - d by ring]
  | 2 =>
    show (((a : EReal) + h) - (v + d)) * quarter = ((((a : EReal) + h) - v) - d) * quarter
    simp only [← EReal.coe_add, ← EReal.coe_sub]
    rw [show (a + h) - (v + d) = ((a + h) - v) - d by ring]
  | (n + 3) =>
    show (((a : EReal) - h) - (v - d)) * quarter = ((((a : EReal) - h) - v) + d) * quarter
    simp only [← EReal.coe_add, ← EReal.coe_sub]
    rw [show (a - h) - (v - d) = ((a - h) - v) + d by ring]

/-- A rank-5 shape whose second axis is the four sub-bands. -/
abbrev Bands (n0 n2 n3 n4 : Nat) : Shape := ⟨5, ![n0, 4, n2, n3, n4]⟩

/-- Sub-band k at the position of j. -/
def band {n0 n2 n3 n4 : Nat} (X : (Bands n0 n2 n3 n4).Idx → EReal) (k : Fin 4) (j : (Bands n0 n2 n3 n4).Idx) : EReal :=
  X (ix5 (j 0 : Fin n0) k (j 2 : Fin n2) (j 3 : Fin n3) (j 4 : Fin n4))

/-- The tiles of X: at (b, k, g, i, j), entry k of the tile made from the four sub-bands at (b, ·, g, i, j). -/
def quadOf {n0 n2 n3 n4 : Nat} (X : (Bands n0 n2 n3 n4).Idx → EReal) : (Bands n0 n2 n3 n4).Idx → EReal := fun j =>
  tile (j 1).val (band X 0 j) (band X 1 j) (band X 2 j) (band X 3 j)

end Cert.Haar

end
-- ==== Proof.Body.lean ====
/-
  What the kernel body leaves in its output block.

  The body loads the four sub-band slabs a, h, v, d of its [1, 4, 16, 128, 128] input block, forms a±h and v±d,
  then the four combinations times one quarter, and stores combination k as slab k of the output block. Each
  slab is viewed [16, 128, 128] for the arithmetic and viewed back for the store; the two views cancel, and the
  arithmetic is entry by entry. So at (0, k, g, i, j) the output block holds entry k of the tile made from
  the input block's four sub-bands at (0, ·, g, i, j): the output block is `quadOf` of the input block.
-/
import proofs.«422376_j21612275433975_4_alg».proof.Proof.Gen.KernelIdeal.Frame
import proofs.«422376_j21612275433975_4_alg».proof.Proof.Haar
import Idealize.ShloMosaic.Lib.Pipeline.Value
import Idealize.ShloMosaic.Lib.ValueIdx

noncomputable section

namespace Cert.KernelIdeal.Body

open Cert.KernelIdeal Cert.KernelIdeal.Gen Cert.Haar
open Idealize.ShloMosaic Idealize.ShloMosaic.ValueIdx

/-! ## The four payloads, entry by entry -/

/-- Slab 0: (a + h) + (v + d), times one quarter. -/
theorem pay_tl (a h v d : Vec Ideal S1x1x16x128x128 .f32) :
    k0_pay15 a h v d = fun x => ((a x + h x) + (v x + d x)) * quarter :=
  shapeCast_shapeCast (fun x => ((a x + h x) + (v x + d x)) * quarter) _ _

/-- Slab 1: (a − h) + (v − d), times one quarter. -/
theorem pay_tr (a h v d : Vec Ideal S1x1x16x128x128 .f32) :
    k0_pay1 (k0_pay12 a h v d) = fun x => ((a x - h x) + (v x - d x)) * quarter :=
  shapeCast_shapeCast (fun x => ((a x - h x) + (v x - d x)) * quarter) _ _

/-- Slab 2: (a + h) − (v + d), times one quarter. -/
theorem pay_bl (a h v d : Vec Ideal S1x1x16x128x128 .f32) :
    k0_pay2 (k0_pay13 a h v d) = fun x => ((a x + h x) - (v x + d x)) * quarter :=
  shapeCast_shapeCast (fun x => ((a x + h x) - (v x + d x)) * quarter) _ _

/-- Slab 3: (a − h) − (v − d), times one quarter. -/
theorem pay_br (a h v d : Vec Ideal S1x1x16x128x128 .f32) :
    k0_pay3 (k0_pay14 a h v d) = fun x => ((a x - h x) - (v x - d x)) * quarter :=
  shapeCast_shapeCast (fun x => ((a x - h x) - (v x - d x)) * quarter) _ _

/-! ## Where a slab sits in the block

Slab k is the unit-stride rectangle at offsets (0, k, 0, 0, 0) of sizes [1, 1, 16, 128, 128]: its entry x sits at
(x₀, k, x₂, x₃, x₄) of the block, the slab's own band coordinate being 0. -/

/-- The band coordinate of an entry of slab k is k. -/
theorem slab_band (k : Nat) (inb : ∀ a, (![0, k, 0, 0, 0] : Fin 5 → Nat) a + S1x1x16x128x128.size a ≤ S1x4x16x128x128.size a)
    (x : S1x1x16x128x128.Idx) :
    ((Rect.unit (s := S1x4x16x128x128) ![0, k, 0, 0, 0] S1x1x16x128x128.size inb).emb x 1).val = k := by
  have h1 : (x 1).val < 1 := (x 1).isLt
  show k + 1 * (x 1).val = k
  omega

/-- Sub-band k' at the position of slab k's entry x is what a load through slab k' reads at x. -/
theorem band_slab (x0 : Vec Ideal S1x4x16x128x128 .f32) (k k' : Nat) (hk' : k' < 4)
    (inb : ∀ a, (![0, k, 0, 0, 0] : Fin 5 → Nat) a + S1x1x16x128x128.size a ≤ S1x4x16x128x128.size a)
    (inb' : ∀ a, (![0, k', 0, 0, 0] : Fin 5 → Nat) a + S1x1x16x128x128.size a ≤ S1x4x16x128x128.size a)
    (x : S1x1x16x128x128.Idx) :
    band (n0 := 1) (n2 := 16) (n3 := 128) (n4 := 128) x0 ⟨k', hk'⟩
        ((Rect.unit (s := S1x4x16x128x128) ![0, k, 0, 0, 0] S1x1x16x128x128.size inb).emb x)
      = View.ld x0 (Rect.unit (s := S1x4x16x128x128) ![0, k', 0, 0, 0] S1x1x16x128x128.size inb') x := by
  have h1 : (x 1).val < 1 := (x 1).isLt
  unfold band
  show x0 _ = x0 _
  refine congrArg x0 (funext fun a => Fin.ext ?_)
  match a with
  | ⟨0, _⟩ => show 0 + 1 * (x 0).val = 0 + 1 * (x 0).val; rfl
  | ⟨1, _⟩ => show k' = k' + 1 * (x 1).val; omega
  | ⟨2, _⟩ => show 0 + 1 * (x 2).val = 0 + 1 * (x 2).val; rfl
  | ⟨3, _⟩ => show 0 + 1 * (x 3).val = 0 + 1 * (x 3).val; rfl
  | ⟨4, _⟩ => show 0 + 1 * (x 4).val = 0 + 1 * (x 4).val; rfl

/-! ## Each stored slab is its slab of `quadOf` of the input block -/

/-- At an entry of slab k, `quadOf` of the block is entry k of the tile of the four slabs' loads there. -/
theorem quadOf_slab (x0 : Vec Ideal S1x4x16x128x128 .f32) (k : Nat)
    (inb : ∀ a, (![0, k, 0, 0, 0] : Fin 5 → Nat) a + S1x1x16x128x128.size a ≤ S1x4x16x128x128.size a)
    (x : S1x1x16x128x128.Idx) :
    quadOf (n0 := 1) (n2 := 16) (n3 := 128) (n4 := 128) x0
        ((Rect.unit (s := S1x4x16x128x128) ![0, k, 0, 0, 0] S1x1x16x128x128.size inb).emb x)
      = tile k (View.ld x0 r0_0 x) (View.ld x0 r0_1 x) (View.ld x0 r0_2 x) (View.ld x0 r0_3 x) := by
  have e0 : band (n0 := 1) (n2 := 16) (n3 := 128) (n4 := 128) x0 0
      ((Rect.unit (s := S1x4x16x128x128) ![0, k, 0, 0, 0] S1x1x16x128x128.size inb).emb x) = View.ld x0 r0_0 x :=
    band_slab x0 k 0 (by omega) inb _ x
  have e1 : band (n0 := 1) (n2 := 16) (n3 := 128) (n4 := 128) x0 1
      ((Rect.unit (s := S1x4x16x128x128) ![0, k, 0, 0, 0] S1x1x16x128x128.size inb).emb x) = View.ld x0 r0_1 x :=
    band_slab x0 k 1 (by omega) inb _ x
  have e2 : band (n0 := 1) (n2 := 16) (n3 := 128) (n4 := 128) x0 2
      ((Rect.unit (s := S1x4x16x128x128) ![0, k, 0, 0, 0] S1x1x16x128x128.size inb).emb x) = View.ld x0 r0_2 x :=
    band_slab x0 k 2 (by omega) inb _ x
  have e3 : band (n0 := 1) (n2 := 16) (n3 := 128) (n4 := 128) x0 3
      ((Rect.unit (s := S1x4x16x128x128) ![0, k, 0, 0, 0] S1x1x16x128x128.size inb).emb x) = View.ld x0 r0_3 x :=
    band_slab x0 k 3 (by omega) inb _ x
  unfold quadOf
  rw [slab_band k inb x, e0, e1, e2, e3]

theorem piece_tl (x0 : Vec Ideal S1x4x16x128x128 .f32) (x : S1x1x16x128x128.Idx) :
    k0_pay15 (View.ld x0 r0_0) (View.ld x0 r0_1) (View.ld x0 r0_2) (View.ld x0 r0_3) x
      = quadOf (n0 := 1) (n2 := 16) (n3 := 128) (n4 := 128) x0 (r0_0.emb x) := by
  rw [pay_tl]; exact (quadOf_slab x0 0 _ x).symm

theorem piece_tr (x0 : Vec Ideal S1x4x16x128x128 .f32) (x : S1x1x16x128x128.Idx) :
    k0_pay1 (k0_pay12 (View.ld x0 r0_0) (View.ld x0 r0_1) (View.ld x0 r0_2) (View.ld x0 r0_3)) x
      = quadOf (n0 := 1) (n2 := 16) (n3 := 128) (n4 := 128) x0 (r0_1.emb x) := by
  rw [pay_tr]; exact (quadOf_slab x0 1 _ x).symm

theorem piece_bl (x0 : Vec Ideal S1x4x16x128x128 .f32) (x : S1x1x16x128x128.Idx) :
    k0_pay2 (k0_pay13 (View.ld x0 r0_0) (View.ld x0 r0_1) (View.ld x0 r0_2) (View.ld x0 r0_3)) x
      = quadOf (n0 := 1) (n2 := 16) (n3 := 128) (n4 := 128) x0 (r0_2.emb x) := by
  rw [pay_bl]; exact (quadOf_slab x0 2 _ x).symm

theorem piece_br (x0 : Vec Ideal S1x4x16x128x128 .f32) (x : S1x1x16x128x128.Idx) :
    k0_pay3 (k0_pay14 (View.ld x0 r0_0) (View.ld x0 r0_1) (View.ld x0 r0_2) (View.ld x0 r0_3)) x
      = quadOf (n0 := 1) (n2 := 16) (n3 := 128) (n4 := 128) x0 (r0_3.emb x) := by
  rw [pay_br]; exact (quadOf_slab x0 3 _ x).symm

/-- What the body leaves in its output block is the tiles of its input block. -/
theorem out_eq (x0 : Vec Ideal S1x4x16x128x128 .f32) :
    out0_1 (F := Ideal) x0 = quadOf (n0 := 1) (n2 := 16) (n3 := 128) (n4 := 128) x0 := by
  funext y
  unfold out0_1
  refine View.canon_apply_of_pieces (Val := Elt Ideal) (S := S1x4x16x128x128) (e := .f32)
    (quadOf (n0 := 1) (n2 := 16) (n3 := 128) (n4 := 128) x0) _ ?_ y (cover0_1 _ _ _ _ y)
  intro p hp
  simp only [List.mem_cons, List.not_mem_nil, or_false] at hp
  rcases hp with rfl | rfl | rfl | rfl
  · exact piece_br x0
  · exact piece_bl x0
  · exact piece_tr x0
  · exact piece_tl x0

end Cert.KernelIdeal.Body

end
-- ==== Proof.Blocks.lean ====
/-
  From blocks to the array: the kernel's output array holds the tiles of its input array.

  The grid has 16 × 4 points; point (b, g) reads block (b, 0, g, 0, 0) of the banded input — batch b, all four
  sub-bands, groups 16g … 16g+15, every row and column — and writes the block at the same place of the output.
  The sub-band axis is never cut, so the tiles of a block are the block of the tiles: what point t writes back is
  block t of `quadOf` of the whole input. The 64 blocks tile the array (batch b and group g lie in the block of
  point (b, g / 16)), so after the run the output array is `quadOf` of the input array.
-/
import proofs.«422376_j21612275433975_4_alg».proof.Proof.Body
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.Haar
open Idealize.ShloMosaic Idealize.ShloMosaic.ValueIdx Idealize.ShloMosaic.TcCoe Idealize.SL.Sem

variable (m : (ℓ : Loc nD τ sig) → Buf (Elt Ideal) ℓ)

/-- The banded input array as the region finds it. -/
abbrev bands (c : Dev nD) : FVec Ideal S16x4x64x128x128 .f32 := V m c main_v0
/-- The input block of grid point t. -/
abbrev inBlock (c : Dev nD) (t : Fin cfg0.N) : Vec Ideal S1x4x16x128x128 .f32 := iblk m c 0 t

/-- An input block reads the array at the block's place. -/
theorem inBlock_apply (c : Dev nD) (t : Fin cfg0.N) (z : S1x4x16x128x128.Idx) :
    inBlock m c t z = bands m c (((cfg0.win 0).blk t).view.emb z) := rfl

/-- The two index maps, decided over the grid: input and output blocks sit at the same batch and group block, at
    block index 0 on the sub-band, row and column axes. -/
theorem idx_facts : ∀ t : Fin cfg0.N,
    win0_0.index t (0 : Fin 5) = win0_1.index t (0 : Fin 5)
    ∧ win0_0.index t (1 : Fin 5) = 0 ∧ win0_1.index t (1 : Fin 5) = 0
    ∧ win0_0.index t (2 : Fin 5) = win0_1.index t (2 : Fin 5)
    ∧ win0_0.index t (3 : Fin 5) = 0 ∧ win0_1.index t (3 : Fin 5) = 0
    ∧ win0_0.index t (4 : Fin 5) = 0 ∧ win0_1.index t (4 : Fin 5) = 0 :=
  (by decide +kernel : ∀ t : Fin grid0.N, _)

/-- Every (batch, group block) is some point's. -/
theorem idx_onto : ∀ (q0 : Fin 16) (q2 : Fin 4), ∃ t : Fin cfg0.N, win0_1.index t = ![q0.val, 0, q2.val, 0, 0] :=
  (by decide +kernel : ∀ (q0 : Fin 16) (q2 : Fin 4), ∃ t : Fin grid0.N, win0_1.index t = ![q0.val, 0, q2.val, 0, 0])

/-- What point t writes back is block t of the tiles of the whole input. -/
theorem flushed_eq (c : Dev nD) (t : Fin cfg0.N) :
    (dats m 0 c).flushed 1 t
      = ((cfg0.win 1).blk t).view.read (Elt Ideal) (quadOf (n0 := 16) (n2 := 64) (n3 := 128) (n4 := 128) (bands m c)) := by
  show (cfg0.win 1).cut (grid0.coords t) ((dats m 0 c).after 1 t) = _
  rw [after0_1, Body.out_eq]
  obtain ⟨e0, e1, e1', e2, e3, e3', e4, e4'⟩ := idx_facts t
  funext y
  show quadOf (n0 := 1) (n2 := 16) (n3 := 128) (n4 := 128) (inBlock m c t) y
    = quadOf (n0 := 16) (n2 := 64) (n3 := 128) (n4 := 128) (bands m c) (((cfg0.win 1).blk t).view.emb y)
  have hband : ((((cfg0.win 1).blk t).view.emb y) 1).val = (y 1).val := by
    show win0_1.index t (1 : Fin 5) * 4 + 1 * (y 1).val = (y 1).val
    omega
  have hsub : ∀ k : Fin 4, band (n0 := 1) (n2 := 16) (n3 := 128) (n4 := 128) (inBlock m c t) k y
      = band (n0 := 16) (n2 := 64) (n3 := 128) (n4 := 128) (bands m c) k (((cfg0.win 1).blk t).view.emb y) := by
    intro k
    unfold band
    rw [inBlock_apply]
    refine congrArg (bands m c) (funext fun a => Fin.ext ?_)
    match a with
    | ⟨0, _⟩ =>
      show win0_0.index t (0 : Fin 5) * 1 + 1 * (y 0).val = win0_1.index t (0 : Fin 5) * 1 + 1 * (y 0).val
      omega
    | ⟨1, _⟩ =>
      show win0_0.index t (1 : Fin 5) * 4 + 1 * k.val = k.val
      omega
    | ⟨2, _⟩ =>
      show win0_0.index t (2 : Fin 5) * 16 + 1 * (y 2).val = win0_1.index t (2 : Fin 5) * 16 + 1 * (y 2).val
      omega
    | ⟨3, _⟩ =>
      show win0_0.index t (3 : Fin 5) * 128 + 1 * (y 3).val = win0_1.index t (3 : Fin 5) * 128 + 1 * (y 3).val
      omega
    | ⟨4, _⟩ =>
      show win0_0.index t (4 : Fin 5) * 128 + 1 * (y 4).val = win0_1.index t (4 : Fin 5) * 128 + 1 * (y 4).val
      omega
  unfold quadOf
  rw [hband, hsub 0, hsub 1, hsub 2, hsub 3]

/-- An index of the output array is in point t's block iff each coordinate is in the block's range on its axis. -/
theorem mem_blk (t : Fin cfg0.N) (i : S16x4x64x128x128.Idx) :
    i ∈ ((cfg0.win 1).blk t).view.set ↔ ∀ a : Fin 5, win0_1.index t a * S1x4x16x128x128.size a ≤ (i a).val
      ∧ (i a).val < win0_1.index t a * S1x4x16x128x128.size a + S1x4x16x128x128.size a := by
  show i ∈ ((View.whole main_v1).slice (win0_1.rect t)).set ↔ _
  rw [View.set_slice_whole, Rect.mem_set_unit]
  exact Iff.rfl

/-- The blocks tile the output array: index (b, k, g, i, j) lies in the block of the point at batch b, group block g / 16. -/
theorem cover (i : S16x4x64x128x128.Idx) :
    ∃ t : Fin cfg0.N, (cfg0.win 1).flush t = true ∧ i ∈ ((cfg0.win 1).blk t).view.set := by
  have h0 : (i 0).val < 16 := (i 0).isLt
  have h1 : (i 1).val < 4 := (i 1).isLt
  have h2 : (i 2).val < 64 := (i 2).isLt
  have h3 : (i 3).val < 128 := (i 3).isLt
  have h4 : (i 4).val < 128 := (i 4).isLt
  obtain ⟨t, ht⟩ := idx_onto ⟨(i 0).val, h0⟩ ⟨(i 2).val / 16, by omega⟩
  have q0 : win0_1.index t (0 : Fin 5) = (i 0).val := congrFun ht 0
  have q1 : win0_1.index t (1 : Fin 5) = 0 := congrFun ht 1
  have q2 : win0_1.index t (2 : Fin 5) = (i 2).val / 16 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ =>
    show win0_1.index t (0 : Fin 5) * 1 ≤ (i 0).val ∧ (i 0).val < win0_1.index t (0 : Fin 5) * 1 + 1
    omega
  | ⟨1, _⟩ =>
    show win0_1.index t (1 : Fin 5) * 4 ≤ (i 1).val ∧ (i 1).val < win0_1.index t (1 : Fin 5) * 4 + 4
    omega
  | ⟨2, _⟩ =>
    show win0_1.index t (2 : Fin 5) * 16 ≤ (i 2).val ∧ (i 2).val < win0_1.index t (2 : Fin 5) * 16 + 16
    omega
  | ⟨3, _⟩ =>
    show win0_1.index t (3 : Fin 5) * 128 ≤ (i 3).val ∧ (i 3).val < win0_1.index t (3 : Fin 5) * 128 + 128
    omega
  | ⟨4, _⟩ =>
    show win0_1.index t (4 : Fin 5) * 128 ≤ (i 4).val ∧ (i 4).val < win0_1.index t (4 : Fin 5) * 128 + 128
    omega

/-- After the run the output array is the tiles of the input array. -/
theorem final (c : Dev nD) :
    (dats m 0 c).arrAt 1 cfg0.N = quadOf (n0 := 16) (n2 := 64) (n3 := 128) (n4 := 128) (bands m c) :=
  (dats m 0 c).arrAt_eq_of_cover 1 _ (fun t _ => flushed_eq m c t) cover

end Cert.KernelIdeal.Blocks

end
-- ==== Proof.Interleave.lean ====
/-
  Layout: taking one sub-band out of the banded array, and putting four quadrant arrays together.

  `sel k Y` is sub-band k of a [16, 4, 64, 128, 128] array as a [16, 64, 128, 128] array: at (b, g, i, j) it
  reads Y at (b, k, g, i, j) (`sel_apply`).

  `interleave p0 p1 p2 p3` is the [16, 64, 256, 256] array whose 2×2 tile at (b, g, i, j) is
  (p0, p1 / p2, p3) at that position: columns are paired first, then rows. Both programs end with exactly
  this function applied to their four quadrant arrays, so it is never opened: equal quadrants give equal results.
-/
import Idealize.ShloMosaic.PureOps
import Idealize.ShloMosaic.Lib.ValueIdx
import Idealize.ShloMosaic.Lib.Pipeline.Value

noncomputable section

namespace Cert.Haar

open Idealize.ShloMosaic Idealize.ShloMosaic.ValueIdx

abbrev Banded : Shape := ⟨5, ![16, 4, 64, 128, 128]⟩
abbrev OneBand : Shape := ⟨5, ![16, 1, 64, 128, 128]⟩
abbrev Quad : Shape := ⟨4, ![16, 64, 128, 128]⟩
abbrev QuadCol : Shape := ⟨5, ![16, 64, 128, 128, 1]⟩
abbrev QuadCols : Shape := ⟨5, ![16, 64, 128, 128, 2]⟩
abbrev Wide : Shape := ⟨4, ![16, 64, 128, 256]⟩
abbrev WideRow : Shape := ⟨5, ![16, 64, 128, 1, 256]⟩
abbrev WideRows : Shape := ⟨5, ![16, 64, 128, 2, 256]⟩
abbrev Full : Shape := ⟨4, ![16, 64, 256, 256]⟩

/-- Sub-band k of a banded array: the slice at band offset k, its unit band axis dropped. -/
def sel {α : Type} (k : Nat) (hs : Banded.Slices ![0, k, 0, 0, 0] OneBand) (hc : OneBand.ShapeCasts Quad)
    (Y : Banded.Idx → α) : Quad.Idx → α :=
  shapeCast Quad (extractStridedSlice OneBand ![0, k, 0, 0, 0] Y hs) hc

/-- It reads the banded array at band k and the same four other coordinates. -/
theorem sel_apply {α : Type} (k : Nat) (hk : k < 4) (hs : Banded.Slices ![0, k, 0, 0, 0] OneBand) (hc : OneBand.ShapeCasts Quad)
    (Y : Banded.Idx → α) (i : Quad.Idx) :
    sel k hs hc Y i = Y (ix5 (i 0 : Fin 16) (⟨k, hk⟩ : Fin 4) (i 1 : Fin 64) (i 2 : Fin 128) (i 3 : Fin 128)) := by
  unfold sel
  refine (shapeCast_apply _ hc i (ix5 (i 0 : Fin 16) (0 : Fin 1) (i 1 : Fin 64) (i 2 : Fin 128) (i 3 : Fin 128)) ?_).trans ?_
  · rewrite [Shape.rowMajor_val_five, Shape.rowMajor_val_four]
    show ((((i 0).val * 1 + 0) * 64 + (i 1).val) * 128 + (i 2).val) * 128 + (i 3).val
      = (((i 0).val * 64 + (i 1).val) * 128 + (i 2).val) * 128 + (i 3).val
    omega
  · exact extractStridedSlice_apply _ Y hs _ _ (fun a => match a with
      | ⟨0, _⟩ => by show (i 0).val = 0 + (i 0).val; omega
      | ⟨1, _⟩ => by show k = k + 0; omega
      | ⟨2, _⟩ => by show (i 1).val = 0 + (i 1).val; omega
      | ⟨3, _⟩ => by show (i 2).val = 0 + (i 2).val; omega
      | ⟨4, _⟩ => by show (i 3).val = 0 + (i 3).val; omega)

/-- Four quadrant arrays as one array of 2×2 tiles: (p0, p1) side by side make the even rows, (p2, p3) the odd rows. -/
def interleave {α : Type}
    (hcol : Quad.BroadcastsInDim QuadCol (![0, 1, 2, 3] : Fin 4 → Fin QuadCol.rank))
    (hcols : Shape.Concatenates [QuadCol, QuadCol] QuadCols 4)
    (hwide : QuadCols.ShapeCasts Wide)
    (hrow : Wide.BroadcastsInDim WideRow (![0, 1, 2, 4] : Fin 4 → Fin WideRow.rank))
    (hrows : Shape.Concatenates [WideRow, WideRow] WideRows 3)
    (hfull : WideRows.ShapeCasts Full)
    (p0 p1 p2 p3 : Quad.Idx → α) : Full.Idx → α :=
  shapeCast Full (concatenate WideRows 3
    [⟨WideRow, broadcastInDim WideRow ![0, 1, 2, 4] hrow (shapeCast Wide (concatenate QuadCols 4
        [⟨QuadCol, broadcastInDim QuadCol ![0, 1, 2, 3] hcol p0⟩, ⟨QuadCol, broadcastInDim QuadCol ![0, 1, 2, 3] hcol p1⟩] hcols) hwide)⟩,
     ⟨WideRow, broadcastInDim WideRow ![0, 1, 2, 4] hrow (shapeCast Wide (concatenate QuadCols 4
        [⟨QuadCol, broadcastInDim QuadCol ![0, 1, 2, 3] hcol p2⟩, ⟨QuadCol, broadcastInDim QuadCol ![0, 1, 2, 3] hcol p3⟩] hcols) hwide)⟩] hrows) hfull

end Cert.Haar

end
-- ==== Proof.Quadrants.lean ====
/-
  The four quadrant arrays of the two programs are the same arrays.

  One program takes sub-band k out of the tiles of X; the other takes the four sub-bands out of X and combines
  them, left to right, entry by entry. At (b, g, i, j) the first reads entry k of the tile made from
  X(b, ·, g, i, j) in the pair grouping, the second the same entry in the left-to-right grouping; with every
  sample real these are one number (`tile_eq_tileSeq`).
-/
import proofs.«422376_j21612275433975_4_alg».proof.Proof.Haar
import proofs.«422376_j21612275433975_4_alg».proof.Proof.Interleave

noncomputable section

namespace Cert.Haar

open Idealize.ShloMosaic Idealize.ShloMosaic.ValueIdx

/-- Sub-band k of the tiles of X at (b, g, i, j): entry k of the tile made from X's four sub-bands there. -/
theorem sel_quadOf (k : Nat) (hk : k < 4) (hs : Banded.Slices ![0, k, 0, 0, 0] OneBand) (hc : OneBand.ShapeCasts Quad)
    (X : Banded.Idx → EReal) (i : Quad.Idx) :
    sel k hs hc (quadOf (n0 := 16) (n2 := 64) (n3 := 128) (n4 := 128) X) i
      = tile k (X (ix5 (i 0 : Fin 16) (⟨0, by omega⟩ : Fin 4) (i 1 : Fin 64) (i 2 : Fin 128) (i 3 : Fin 128)))
          (X (ix5 (i 0 : Fin 16) (⟨1, by omega⟩ : Fin 4) (i 1 : Fin 64) (i 2 : Fin 128) (i 3 : Fin 128)))
          (X (ix5 (i 0 : Fin 16) (⟨2, by omega⟩ : Fin 4) (i 1 : Fin 64) (i 2 : Fin 128) (i 3 : Fin 128)))
          (X (ix5 (i 0 : Fin 16) (⟨3, by omega⟩ : Fin 4) (i 1 : Fin 64) (i 2 : Fin 128) (i 3 : Fin 128))) := by
  rw [sel_apply k hk]
  rfl

/-- With every sample real, sub-band k of the tiles is the left-to-right combination of the four sub-bands. -/
theorem quadrant_eq (k : Nat) (hk : k < 4) (hs : Banded.Slices ![0, k, 0, 0, 0] OneBand)
    (hs0 : Banded.Slices ![0, 0, 0, 0, 0] OneBand) (hs1 : Banded.Slices ![0, 1, 0, 0, 0] OneBand)
    (hs2 : Banded.Slices ![0, 2, 0, 0, 0] OneBand) (hs3 : Banded.Slices ![0, 3, 0, 0, 0] OneBand)
    (hc : OneBand.ShapeCasts Quad) (X : Banded.Idx → EReal) (hX : ∀ j, ∃ r : ℝ, X j = (r : EReal)) :
    sel k hs hc (quadOf (n0 := 16) (n2 := 64) (n3 := 128) (n4 := 128) X)
      = fun i => tileSeq k (sel 0 hs0 hc X i) (sel 1 hs1 hc X i) (sel 2 hs2 hc X i) (sel 3 hs3 hc X i) := by
  funext i
  rw [sel_quadOf k hk, sel_apply 0 (by omega), sel_apply 1 (by omega), sel_apply 2 (by omega), sel_apply 3 (by omega)]
  obtain ⟨a, ha⟩ := hX (ix5 (i 0 : Fin 16) (⟨0, by omega⟩ : Fin 4) (i 1 : Fin 64) (i 2 : Fin 128) (i 3 : Fin 128))
  obtain ⟨h, hh⟩ := hX (ix5 (i 0 : Fin 16) (⟨1, by omega⟩ : Fin 4) (i 1 : Fin 64) (i 2 : Fin 128) (i 3 : Fin 128))
  obtain ⟨v, hv⟩ := hX (ix5 (i 0 : Fin 16) (⟨2, by omega⟩ : Fin 4) (i 1 : Fin 64) (i 2 : Fin 128) (i 3 : Fin 128))
  obtain ⟨d, hd⟩ := hX (ix5 (i 0 : Fin 16) (⟨3, by omega⟩ : Fin 4) (i 1 : Fin 64) (i 2 : Fin 128) (i 3 : Fin 128))
  rw [ha, hh, hv, hd]
  exact tile_eq_tileSeq k a h v d

/-! ## The two whole results -/

/-- The shape relations both programs state for the sub-band slices and the interleaving, in one bundle. -/
structure Layout : Prop where
  hs0 : Banded.Slices ![0, 0, 0, 0, 0] OneBand
  hs1 : Banded.Slices ![0, 1, 0, 0, 0] OneBand
  hs2 : Banded.Slices ![0, 2, 0, 0, 0] OneBand
  hs3 : Banded.Slices ![0, 3, 0, 0, 0] OneBand
  hc : OneBand.ShapeCasts Quad
  hcol : Quad.BroadcastsInDim QuadCol (![0, 1, 2, 3] : Fin 4 → Fin QuadCol.rank)
  hcols : Shape.Concatenates [QuadCol, QuadCol] QuadCols 4
  hwide : QuadCols.ShapeCasts Wide
  hrow : Wide.BroadcastsInDim WideRow (![0, 1, 2, 4] : Fin 4 → Fin WideRow.rank)
  hrows : Shape.Concatenates [WideRow, WideRow] WideRows 3
  hfull : WideRows.ShapeCasts Full

/-- Tiles first, then the four sub-bands of the tiles interleaved. -/
def pairResult (L : Layout) (X : Banded.Idx → EReal) : Full.Idx → EReal :=
  interleave L.hcol L.hcols L.hwide L.hrow L.hrows L.hfull
    (sel 0 L.hs0 L.hc (quadOf (n0 := 16) (n2 := 64) (n3 := 128) (n4 := 128) X))
    (sel 1 L.hs1 L.hc (quadOf (n0 := 16) (n2 := 64) (n3 := 128) (n4 := 128) X))
    (sel 2 L.hs2 L.hc (quadOf (n0 := 16) (n2 := 64) (n3 := 128) (n4 := 128) X))
    (sel 3 L.hs3 L.hc (quadOf (n0 := 16) (n2 := 64) (n3 := 128) (n4 := 128) X))

/-- The four sub-bands first, combined left to right into the four quadrants, then interleaved. -/
def seqResult (L : Layout) (X : Banded.Idx → EReal) : Full.Idx → EReal :=
  interleave L.hcol L.hcols L.hwide L.hrow L.hrows L.hfull
    (fun i => tileSeq 0 (sel 0 L.hs0 L.hc X i) (sel 1 L.hs1 L.hc X i) (sel 2 L.hs2 L.hc X i) (sel 3 L.hs3 L.hc X i))
    (fun i => tileSeq 1 (sel 0 L.hs0 L.hc X i) (sel 1 L.hs1 L.hc X i) (sel 2 L.hs2 L.hc X i) (sel 3 L.hs3 L.hc X i))
    (fun i => tileSeq 2 (sel 0 L.hs0 L.hc X i) (sel 1 L.hs1 L.hc X i) (sel 2 L.hs2 L.hc X i) (sel 3 L.hs3 L.hc X i))
    (fun i => tileSeq 3 (sel 0 L.hs0 L.hc X i) (sel 1 L.hs1 L.hc X i) (sel 2 L.hs2 L.hc X i) (sel 3 L.hs3 L.hc X i))

/-- On a real input the two results are one array: their quadrants agree, and the interleaving is the same function. -/
theorem pairResult_eq_seqResult (L : Layout) (X : Banded.Idx → EReal) (hX : ∀ j, ∃ r : ℝ, X j = (r : EReal)) :
    pairResult L X = seqResult L X := by
  unfold pairResult seqResult
  rw [quadrant_eq 0 (by omega) L.hs0 L.hs0 L.hs1 L.hs2 L.hs3 L.hc X hX,
    quadrant_eq 1 (by omega) L.hs1 L.hs0 L.hs1 L.hs2 L.hs3 L.hc X hX,
    quadrant_eq 2 (by omega) L.hs2 L.hs0 L.hs1 L.hs2 L.hs3 L.hc X hX,
    quadrant_eq 3 (by omega) L.hs3 L.hs0 L.hs1 L.hs2 L.hs3 L.hc X hX]

end Cert.Haar

end
-- ==== Proof.KernelRun.lean ====
/-
  The kernel program's result: the host side around the region.

  Before the region the one host operation regroups the argument [16, 256, 128, 128] as [16, 4, 64, 128, 128]
  (`bands_eq`). After the region the host takes the four sub-bands out of the region's output array, which holds
  the tiles of the banded input (`Blocks.final`), and interleaves them: the program's result is `pairResult` of
  the banded input.
-/
import proofs.«422376_j21612275433975_4_alg».proof.Proof.Blocks
import proofs.«422376_j21612275433975_4_alg».proof.Proof.Quadrants
import Idealize.ShloMosaic.Lib.StableHlo.Run

set_option maxRecDepth 16384

noncomputable section

namespace Cert.KernelIdeal.HostSide

open Cert.KernelIdeal Cert.KernelIdeal.Gen Cert.Haar
open Idealize.ShloMosaic Idealize.ShloMosaic.TcCoe Idealize.SL.Sem Idealize.ShloMosaic.StableHlo

variable (m : (ℓ : Loc nD τ sig) → Buf (Elt Ideal) ℓ) (ρ : Dev nD → PrngReg)

/-- The layout relations, as this program states them. -/
theorem layout : Layout where
  hs0 := slices_S16x4x64x128x128_S16x1x64x128x128_0_0_0_0_0
  hs1 := slices_S16x4x64x128x128_S16x1x64x128x128_0_1_0_0_0
  hs2 := slices_S16x4x64x128x128_S16x1x64x128x128_0_2_0_0_0
  hs3 := slices_S16x4x64x128x128_S16x1x64x128x128_0_3_0_0_0
  hc := shapeCasts_S16x1x64x128x128_S16x64x128x128
  hcol := bcast_S16x64x128x128_S16x64x128x128x1_0_1_2_3
  hcols := concatenates_S16x64x128x128x1_S16x64x128x128x1_S16x64x128x128x2_d4
  hwide := shapeCasts_S16x64x128x128x2_S16x64x128x256
  hrow := bcast_S16x64x128x256_S16x64x128x1x256_0_1_2_4
  hrows := concatenates_S16x64x128x1x256_S16x64x128x1x256_S16x64x128x2x256_d3
  hfull := shapeCasts_S16x64x128x2x256_S16x64x256x256

/-- The banded input is the argument regrouped. -/
theorem bands_eq (c : Dev nD) :
    Blocks.bands m c = shapeCast S16x4x64x128x128 (m ((c : Thread nD τ).loc main_arg0)) shapeCasts_S16x256x128x128_S16x4x64x128x128 := by
  show StableHlo.after hostOps0 (fun b => m (c, b)) (Proc.devRef .tc main_v0) = _
  after_results
  rfl

/-- The host operations after the region, from any contents W: the four sub-bands of the region's output array, interleaved. -/
theorem tail_of (W : Valuation τ sig (Elt Ideal)) :
    StableHlo.after hostOps1 W (Proc.devRef .tc main_v21)
      = interleave layout.hcol layout.hcols layout.hwide layout.hrow layout.hrows layout.hfull
          (sel 0 layout.hs0 layout.hc (W (Proc.devRef .tc main_v1))) (sel 1 layout.hs1 layout.hc (W (Proc.devRef .tc main_v1)))
          (sel 2 layout.hs2 layout.hc (W (Proc.devRef .tc main_v1))) (sel 3 layout.hs3 layout.hc (W (Proc.devRef .tc main_v1))) := by
  after_results
  rfl

/-- The region's output array, as the host operations after the region find it: the tiles of the banded input. -/
theorem quad_array (c : Dev nD) :
    Pipeline.withArrays (cfgs 0).spec c (V0 m c) (fun w => (dats m 0 c).arrAt w (cfgs 0).N) (Proc.devRef .tc main_v1)
      = quadOf (n0 := 16) (n2 := 64) (n3 := 128) (n4 := 128) (Blocks.bands m c) :=
  (Pipeline.withArrays_arr spec0 launch0.win.arr_inj c _ _ 1).trans (Blocks.final m c)

/-- The program's result buffer after the host tail. -/
theorem tail_eq (c : Dev nD) :
    Pipeline.afterTail₀ cfgs (dats m) 0 (V0 m) [hostOps1] c main_v21 = pairResult layout (Blocks.bands m c) := by
  unfold Pipeline.afterTail₀
  refine (tail_of _).trans ?_
  unfold pairResult
  rw [quad_array m c]

/-- Every weakly fair execution of the kernel program terminates with its result at `pairResult` of the banded input
    and its argument unchanged. -/
theorem run : θ_run defs (onTc (τ := τ) (main (F := Ideal))) ⟨m, fun _ => 0, ρ⟩ fun r => ∀ c : Dev nD,
      r.2.mem ((c.tc : Thread nD τ).loc main_v21) = pairResult layout (Blocks.bands m c)
      ∧ r.2.mem ((c.tc : Thread nD τ).loc main_arg0) = m ((c.tc : Thread nD τ).loc main_arg0) :=
  (θ_run defs _ _).mono (fun r h c =>
      ⟨((h c).2 main_v21 (Pipeline.mem_restRefs_of main_v21 (by decide) (by decide))).trans (tail_eq m c),
       ((h c).2 main_arg0 (Pipeline.mem_restRefs_of main_arg0 (by decide) (by decide))).trans (W_main_arg0 m (dats m) c)⟩)
    (run_main m ρ)

end Cert.KernelIdeal.HostSide

end
-- ==== Proof.RefQuads.lean ====
/-
  The reference program's result.

  The reference regroups its argument [16, 256, 128, 128] as [16, 4, 64, 128, 128], takes the four sub-bands out,
  combines them entry by entry — a+h+v+d, a−h+v−d, a+h−v−d, a−h−v+d, each summed left to right and multiplied by
  one quarter — and interleaves the four results: `seqResult` of the banded argument.
-/
import proofs.«422376_j21612275433975_4_alg».proof.Proof.RefRun
import proofs.«422376_j21612275433975_4_alg».proof.Proof.Quadrants

set_option maxRecDepth 16384

noncomputable section

namespace Cert.ReferenceIdeal.Quads

open Cert.ReferenceIdeal Cert.ReferenceIdeal.Gen Cert.Haar
open Idealize.ShloMosaic Idealize.ShloMosaic.TcCoe Idealize.SL.Sem

/-- The layout relations, as this program states them. -/
theorem layout : Layout where
  hs0 := slices_S16x4x64x128x128_S16x1x64x128x128_0_0_0_0_0
  hs1 := slices_S16x4x64x128x128_S16x1x64x128x128_0_1_0_0_0
  hs2 := slices_S16x4x64x128x128_S16x1x64x128x128_0_2_0_0_0
  hs3 := slices_S16x4x64x128x128_S16x1x64x128x128_0_3_0_0_0
  hc := shapeCasts_S16x1x64x128x128_S16x64x128x128
  hcol := bcast_S16x64x128x128_S16x64x128x128x1_0_1_2_3
  hcols := concatenates_S16x64x128x128x1_S16x64x128x128x1_S16x64x128x128x2_d4
  hwide := shapeCasts_S16x64x128x128x2_S16x64x128x256
  hrow := bcast_S16x64x128x256_S16x64x128x1x256_0_1_2_4
  hrows := concatenates_S16x64x128x1x256_S16x64x128x1x256_S16x64x128x2x256_d3
  hfull := shapeCasts_S16x64x128x2x256_S16x64x256x256

/-- The run's result term is the left-to-right result of the banded argument. -/
theorem res_eq (m : (ℓ : Loc nD τ sig) → Buf (Elt Ideal) ℓ) (c : Dev nD) :
    ValueP.res_main_v40 (F := Ideal) m c
      = seqResult layout (shapeCast S16x4x64x128x128 (m ((c.tc : Thread nD τ).loc main_arg0))
          shapeCasts_S16x256x128x128_S16x4x64x128x128) := by
  unfold ValueP.res_main_v40
  rfl

end Cert.ReferenceIdeal.Quads

end
-- ==== Proof.Finite.lean ====
/-
  Finiteness: what the precondition says of the input.

  The precondition is "every entry x of the input satisfies |x| < +∞", folded over the whole array by "and".
  Read at one index it says max x (−x) < ⊤ on the extended reals, which rules out both infinities:
  every entry is a real number. This is what lets the butterfly's two groupings be compared over ℝ.
-/
import proofs.«422376_j21612275433975_4_alg».proof.Pre_finite_inputs
import Idealize.ShloMosaic.PureOps.Ideal
import Idealize.ShloMosaic.Lib.ValueIdx
import Idealize.ShloMosaic.Lib.ReduceAll

noncomputable section

namespace Cert.Haar

open Idealize.ShloMosaic

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the input is a real number. -/
theorem real_of_pre [Cert.Pre_finite_inputs.Facts] (x : FVec Ideal Cert.Pre_finite_inputs.S16x256x128x128 .f32)
    (h : Cert.Pre_finite_inputs.fn (F := Ideal) x = fun _ => 1#1) (i : Cert.Pre_finite_inputs.S16x256x128x128.Idx) :
    ∃ r : ℝ, x i = (r : EReal) := by
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  apply real_of_abs_lt_top
  have hc : Ideal.cmp .olt (max (x i) (-(x i))) (Ideal.ofBits .f32 0x7F800000#32) = 1#1 := hi
  have htop : Ideal.ofBits .f32 0x7F800000#32 = (⊤ : EReal) := by simp [Ideal.ofBits, Ideal.ieee]
  rw [htop] at hc
  unfold Ideal.cmp at hc
  dsimp only at hc
  cases hd : decide (max (x i) (-(x i)) < ⊤) with
  | true => exact of_decide_eq_true hd
  | false => rw [hd] at hc; exact absurd hc (by decide)

end Cert.Haar

end
-- ==== Proof.lean ====
/-
  The inverse Haar transform: a Pallas kernel with a host interleave against its jnp reference, over the extended reals.

  Input [16, 256, 128, 128], regrouped as four sub-bands a, h, v, d of 64 groups each. Every position (b, g, i, j)
  yields the 2×2 output tile ¼(a+h+v+d), ¼(a−h+v−d) / ¼(a+h−v−d), ¼(a−h−v+d); the output is [16, 64, 256, 256].
  The kernel forms a±h and v±d first and writes the four tile entries as four sub-bands of a [16, 4, 64, 128, 128]
  array, which the host then interleaves; the reference adds each entry's four terms left to right and interleaves
  the same way. The interleaving is one function on both sides and is never opened. The four quadrant arrays agree
  entry by entry because, the input being finite, every sample is a real number and the two groupings of a sum of
  reals are equal (on the extended reals −(v+d) = −v−d can fail, so the precondition is used).

  Frames: the kernel's two are the generated frame certificates; the reference's is its run with the result dropped.
  The idealization rewrote nothing, so `preserves` is `True`.
-/
import proofs.«422376_j21612275433975_4_alg».proof.Defs
import proofs.«422376_j21612275433975_4_alg».proof.Proof.Gen.Kernel
import proofs.«422376_j21612275433975_4_alg».proof.Proof.Gen.Kernel.Skeleton
import proofs.«422376_j21612275433975_4_alg».proof.Proof.Gen.Kernel.Launch
import proofs.«422376_j21612275433975_4_alg».proof.Proof.Gen.Kernel.Points
import proofs.«422376_j21612275433975_4_alg».proof.Proof.Gen.Kernel.Frame
import proofs.«422376_j21612275433975_4_alg».proof.Proof.Gen.KernelIdeal
import proofs.«422376_j21612275433975_4_alg».proof.Proof.Gen.KernelIdeal.Skeleton
import proofs.«422376_j21612275433975_4_alg».proof.Proof.Gen.KernelIdeal.Launch
import proofs.«422376_j21612275433975_4_alg».proof.Proof.Gen.KernelIdeal.Points
import proofs.«422376_j21612275433975_4_alg».proof.Proof.Gen.KernelIdeal.Frame
import proofs.«422376_j21612275433975_4_alg».proof.Proof.Gen.ReferenceIdeal
import proofs.«422376_j21612275433975_4_alg».proof.Proof.Gen.Pre_finite_inputs
import Idealize.ShloMosaic.Adequacy
import Idealize.ShloMosaic.Init

import proofs.«422376_j21612275433975_4_alg».proof.Proof.KernelRun
import proofs.«422376_j21612275433975_4_alg».proof.Proof.RefQuads
import proofs.«422376_j21612275433975_4_alg».proof.Proof.Finite

noncomputable section

namespace Cert.Proof

open Idealize.ShloMosaic Idealize.SL.Sem Cert.Haar

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs run; the kernel program ends at the pair-grouped result of its banded input, the reference at the
    left-to-right result of the same banded input, and on a finite input these are one array. -/
theorem algebraic : Cert.algebraic_KernelIdeal_ReferenceIdeal := by
  intro m ρ m' ρ' hpre hagree
  refine ⟨fun c => pairResult Cert.KernelIdeal.HostSide.layout (Cert.KernelIdeal.Blocks.bands m c),
    Cert.KernelIdeal.HostSide.run m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v40 m' c
    = pairResult Cert.KernelIdeal.HostSide.layout (Cert.KernelIdeal.Blocks.bands m c)
  rw [Cert.ReferenceIdeal.Quads.res_eq, hagree c, Cert.KernelIdeal.HostSide.bands_eq]
  symm
  refine pairResult_eq_seqResult _ _ (fun j => ?_)
  unfold shapeCast
  exact real_of_pre _ (hpre c) _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
